-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024 : Shape := ⟨1, ![1024]⟩
abbrev S64x1024 : Shape := ⟨2, ![64, 1024]⟩
abbrev S64x1024x1024 : Shape := ⟨3, ![64, 1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_arg4 : FVec F S64x1024 .f32) (main_arg5 : FVec F S64x1024 .f32) (main_v13 : IVec S_ 1) (main_v16 : IVec S64x1024x1024 1) : IVec S_ 1 :=
  let main_c_5 : IVec S_ 1 := constantI S_ 1 1#1
  let main_v17 : IVec S_ 1 := (fun x v => Host.reduce IntOp.andi x v reducesTo_S64x1024x1024_S_d0_1_2 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S1024x1024 .f32) (main_arg1 : FVec F S1024 .f32) (main_arg2 : FVec F S64x1024 .f32) (main_arg3 : FVec F S64x1024x1024 .f32) (main_arg4 : FVec F S64x1024 .f32) (main_arg5 : FVec F S64x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024x1024 .f32 := Host.absf main_arg3
  let main_cst_4 : FVec F S_ .f32 := constant S_ .f32 0x7F800000#32
  let main_v15 : FVec F S64x1024x1024 .f32 := broadcastInDim S64x1024x1024 ![] bcast_S_S64x1024x1024 main_cst_4
  let main_v16 : IVec S64x1024x1024 1 := cmpf .olt main_v14 main_v15
  fn_part1 (F := F) main_arg4 main_arg5 main_v13 main_v16
-- ==== Kernel.lean ====
abbrev S1024x1024 : Shape := ⟨2, ![1024, 1024]⟩
abbrev S1024 : Shape := ⟨1, ![1024]⟩
abbrev S64x1024 : Shape := ⟨2, ![64, 1024]⟩
abbrev S64x1024x1024 : Shape := ⟨3, ![64, 1024, 1024]⟩
abbrev S1024x512 : Shape := ⟨2, ![1024, 512]⟩
abbrev S512 : Shape := ⟨1, ![512]⟩
abbrev S64x512 : Shape := ⟨2, ![64, 512]⟩
abbrev S1x512 : Shape := ⟨2, ![1, 512]⟩
abbrev S16x128x1024 : Shape := ⟨3, ![16, 128, 1024]⟩
abbrev S16x128 : Shape := ⟨2, ![16, 128]⟩
abbrev S16x128x1 : Shape := ⟨3, ![16, 128, 1]⟩

abbrev nBuf : Space → Nat
  | .hbm => 10
  | .vmem => 21
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S64x1024, .f32⟩
  | .hbm, ⟨3, _⟩ => ⟨S64x1024x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .hbm, ⟨8, _⟩ => ⟨S64x1024, .f32⟩
  | .hbm, ⟨9, _⟩ => ⟨S64x1024x1024, .f32⟩
  | .local _ .vmem, ⟨0, _⟩ => ⟨S64x1024, .f32⟩
  | .local _ .vmem, ⟨1, _⟩ => ⟨S1024x512, .f32⟩
  | .local _ .vmem, ⟨2, _⟩ => ⟨S1024x512, .f32⟩
  | .local _ .vmem, ⟨3, _⟩ => ⟨S512, .f32⟩
  | .local _ .vmem, ⟨4, _⟩ => ⟨S512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S16x128x1024, .f32⟩
  | .local _ .vmem, ⟨16, _⟩ => ⟨S16x128x1024, .f32⟩
  | .local _ .vmem, ⟨17, _⟩ => ⟨S16x128, .f32⟩
  | .local _ .vmem, ⟨18, _⟩ => ⟨S16x128, .f32⟩
  | .local _ .vmem, ⟨19, _⟩ => ⟨S16x128x1024, .f32⟩
  | .local _ .vmem, ⟨20, _⟩ => ⟨S16x128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S16x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S64x1024_S64x1024_0_0 : ∀ a, (![0, 0] : Fin 2 → Nat) a + S64x1024.size a ≤ S64x1024.size a
  h_S64x1024 : 0 < S64x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  natLt_1_32 : 1 < 32
  inb_S16x128_S16x128_0_0 : ∀ a, (![0, 0] : Fin 2 → Nat) a + S16x128.size a ≤ S16x128.size a
  h_S16x128 : 0 < S16x128.numel
  shapeCasts_S16x128_S16x128x1 : S16x128.ShapeCasts S16x128x1
  inb_S16x128x1024_S16x128x1024_0_0_0 : ∀ a, (![0, 0, 0] : Fin 3 → Nat) a + S16x128x1024.size a ≤ S16x128x1024.size a
  h_S16x128x1024 : 0 < S16x128x1024.numel
  broadcasts_S16x128x1_S16x128x1024 : S16x128x1.Broadcasts S16x128x1024
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x1024.size a
  hwx0_1 : ∀ i : grid0.Coords, EltTy.bits .f32 = 32 ∨ (Rect.block (s := S1024x1024) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S1024.size a
  hwx0_2 : ∀ i : grid0.Coords, EltTy.bits .f32 = 32 ∨ (Rect.block (s := S1024) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x1024.size a
  hwx0_3 : ∀ i : grid0.Coords, EltTy.bits .f32 = 32 ∨ (Rect.block (s := S64x1024) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x1024.size a
  hwx0_4 : ∀ i : grid0.Coords, EltTy.bits .f32 = 32 ∨ (Rect.block (s := S64x1024) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x1024.size a
  hwx0_5 : ∀ i : grid0.Coords, EltTy.bits .f32 = 32 ∨ (Rect.block (s := S64x1024) S64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x1024.size a
  hwx0_6 : ∀ i : grid0.Coords, EltTy.bits .f32 = 32 ∨ (Rect.block (s := S64x1024) S64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x512.size a ≤ S64x1024.size a
  hwx0_7 : ∀ i : grid0.Coords, EltTy.bits .f32 = 32 ∨ (Rect.block (s := S64x1024) S64x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x1024.size a ≤ S64x1024x1024.size a
  hwx1_0 : ∀ i : grid1.Coords, EltTy.bits .f32 = 32 ∨ (Rect.block (s := S64x1024x1024) S16x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S64x1024.size a
  hwx1_1 : ∀ i : grid1.Coords, EltTy.bits .f32 = 32 ∨ (Rect.block (s := S64x1024) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128x1024.size a ≤ S64x1024x1024.size a
  hwx1_2 : ∀ i : grid1.Coords, EltTy.bits .f32 = 32 ∨ (Rect.block (s := S64x1024x1024) S16x128x1024.size (cc1_transform_2 i) (hinb1_2 i)).WholeWords (EltTy.packing .f32)

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_arg5) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S64x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S64x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg3) S16x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S16x128x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x1024 : Shape := ⟨2, ![1024, 1024]⟩
abbrev S1024 : Shape := ⟨1, ![1024]⟩
abbrev S64x1024 : Shape := ⟨2, ![64, 1024]⟩
abbrev S64x1024x1024 : Shape := ⟨3, ![64, 1024, 1024]⟩
abbrev S1x1024 : Shape := ⟨2, ![1, 1024]⟩
abbrev S_ : Shape := ⟨0, ![]⟩
abbrev S64x1024x1 : Shape := ⟨3, ![64, 1024, 1]⟩

abbrev nBuf : Space → Nat
  | .hbm => 34
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S64x1024, .f32⟩
  | .hbm, ⟨3, _⟩ => ⟨S64x1024x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S1x1024, .f32⟩
  | .hbm, ⟨8, _⟩ => ⟨S64x1024, .f32⟩
  | .hbm, ⟨9, _⟩ => ⟨S64x1024, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .f32⟩
  | .hbm, ⟨17, _⟩ => ⟨S_, .f32⟩
  | .hbm, ⟨18, _⟩ => ⟨S64x1024, .f32⟩
  | .hbm, ⟨19, _⟩ => ⟨S64x1024, .i1⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S64x1024x1024, .f32⟩
  | .hbm, ⟨24, _⟩ => ⟨S64x1024x1024, .f32⟩
  | .hbm, ⟨25, _⟩ => ⟨S64x1024x1, .f32⟩
  | .hbm, ⟨26, _⟩ => ⟨S64x1024x1024, .f32⟩
  | .hbm, ⟨27, _⟩ => ⟨S64x1024x1024, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64x1024, .f32⟩
  | .hbm, ⟨33, _⟩ => ⟨S64x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S_S64x1024x1024 : S_.BroadcastsInDim S64x1024x1024 (![] : Fin 0 → Fin S64x1024x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024_S1024x1024_S64x1024_1_0_0_1_n_n_wf : DotDims.WF S64x1024 S1024x1024 S64x1024 [1] [0] [0] [1] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

class Facts : Prop extends Facts₀ where

variable [Facts]
-- ==== Proof.LibTrailingUnitAxis.lean ====
import Idealize.ShloMosaic.Lib.ValueIdx
import Idealize.ShloMosaic.Lib.Pipeline.Value

/-!
# A trailing unit axis: `x[:, :, None]` and its broadcast along the new axis, read at an index

A rank-2 array cast to `[a, b, 1]` keeps its entries (row-major positions agree, the last coordinate
being 0), and an `[a, b, 1]` array broadcast to `[a, b, n]` repeats each entry along the last axis. Together
they say that `x[:, :, None]` broadcast against an `[a, b, n]` array reads `x (i, j)` at `(i, j, l)`.
-/

namespace Idealize.ShloMosaic.ValueIdx

variable {α : Type}

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, l)`, the operand's one entry at `(i, j)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Idealize.ShloMosaic.ValueIdx
-- ==== Proof.Body.lean ====
import proofs.«168244_j60894046323057_1_alg».proof.Proof.Gen.KernelIdeal.Skeleton
import proofs.«168244_j60894046323057_1_alg».proof.Proof.LibTrailingUnitAxis
import Idealize.ShloMosaic.Lib.ValueIdx
import Idealize.ShloMosaic.Lib.ValueLayout
import Idealize.ShloMosaic.Lib.Pipeline.Value
import Idealize.ShloMosaic.PureOps.Ideal.Laws

/-!
# What the two kernel bodies compute, entry by entry, over the extended reals

The dense/LIF body works on one column tile of 512 neurons: with `x` the whole input `[64, 1024]`, `w` the
tile's weight columns `[1024, 512]`, `b` its biases and `v` its membrane potentials, entry `(p, q)` of

* the potential before the reset is `β · v(p,q) + (Σₖ x(p,k) · w(k,q) + b(q))` — the rounding of both matrix
  operands to bf16 is the identity on extended reals, and the product into a zero accumulator is the plain sum;
* the spike is the indicator of `potential − 1 > 0` (a one-bit comparison, zero-extended and converted:
  the bit as a number);
* the new membrane potential is `potential − spike`;
* the bias trace is `β · e(p,q) + 1`.

The trace body works on a `[16, 128, 1024]` tile: entry `(i, j, l)` is `β · E(i,j,l) + x(i,j)`, the input tile
given a trailing unit axis and repeated along it. `β`, `1` and `0` stay the binary words the programs print.
-/

noncomputable section

namespace Cert.KernelIdeal.Body

open Cert.KernelIdeal Cert.KernelIdeal.Gen
open Idealize.ShloMosaic Idealize.ShloMosaic.TcCoe Idealize.ShloMosaic.ValueIdx

/-! ## The matrix product of a row of the input with a column of the tile -/

theorem lhs_row (i : S64x512.Idx) (q : dot_S64x1024_S1024x512_S64x512_1_0_0_1_n_n.contr.Idx) :
    (dot_S64x1024_S1024x512_S64x512_1_0_0_1_n_n.lhsIdx i q 0).val = (i 0).val := by
  unfold DotDims.lhsIdx
  rw [dif_neg (show ¬(0 : Fin S64x1024.rank) ∈ dot_S64x1024_S1024x512_S64x512_1_0_0_1_n_n.lhsBatch by decide), dif_pos (show (0 : Fin S64x1024.rank) ∈ dot_S64x1024_S1024x512_S64x512_1_0_0_1_n_n.lhsNonContracting by decide)]
  rfl
theorem lhs_col (i : S64x512.Idx) (q : dot_S64x1024_S1024x512_S64x512_1_0_0_1_n_n.contr.Idx) :
    (dot_S64x1024_S1024x512_S64x512_1_0_0_1_n_n.lhsIdx i q 1).val = (q ⟨0, by decide⟩).val :=
  dot_S64x1024_S1024x512_S64x512_1_0_0_1_n_n.lhsIdx_val_of_single rfl i q
theorem rhs_row (i : S64x512.Idx) (q : dot_S64x1024_S1024x512_S64x512_1_0_0_1_n_n.contr.Idx) :
    (dot_S64x1024_S1024x512_S64x512_1_0_0_1_n_n.rhsIdx i q 0).val = (q ⟨0, by decide⟩).val :=
  dot_S64x1024_S1024x512_S64x512_1_0_0_1_n_n.rhsIdx_val_of_single rfl i q
theorem rhs_col (i : S64x512.Idx) (q : dot_S64x1024_S1024x512_S64x512_1_0_0_1_n_n.contr.Idx) :
    (dot_S64x1024_S1024x512_S64x512_1_0_0_1_n_n.rhsIdx i q 1).val = (i 1).val := by
  unfold DotDims.rhsIdx
  rw [dif_neg (show ¬(1 : Fin S1024x512.rank) ∈ dot_S64x1024_S1024x512_S64x512_1_0_0_1_n_n.rhsBatch by decide), dif_pos (show (1 : Fin S1024x512.rank) ∈ dot_S64x1024_S1024x512_S64x512_1_0_0_1_n_n.rhsNonContracting by decide)]
  rfl

/-- The product into a zero accumulator, at `(p, q)`: row `p` of the left operand against column `q` of the right. -/
theorem product_apply (x : FVec Ideal S64x1024 .bf16) (w : FVec Ideal S1024x512 .bf16) (p : Fin 64) (q : Fin 512) :
    matmul dot_S64x1024_S1024x512_S64x512_1_0_0_1_n_n none x w (constant (F := Ideal) S64x512 .f32 0x00000000#32) (ix2 p q)
      = ∑ k : Fin 1024, x (ix2 p k) * w (ix2 k q) := by
  show FloatOps.matmul dot_S64x1024_S1024x512_S64x512_1_0_0_1_n_n none x w (constant (F := Ideal) S64x512 .f32 0x00000000#32) (ix2 p q) = _
  rw [Ideal.matmul_constant_zero_apply, ← Equiv.sum_comp (ValueIdx.contrEquiv1 dot_S64x1024_S1024x512_S64x512_1_0_0_1_n_n 1024 rfl rfl).symm]
  refine Finset.sum_congr rfl fun k _ => ?_
  have hk := ValueIdx.contrEquiv1_symm_val dot_S64x1024_S1024x512_S64x512_1_0_0_1_n_n 1024 rfl rfl k
  have el : dot_S64x1024_S1024x512_S64x512_1_0_0_1_n_n.lhsIdx (ix2 p q) ((ValueIdx.contrEquiv1 dot_S64x1024_S1024x512_S64x512_1_0_0_1_n_n 1024 rfl rfl).symm k) = ix2 p k := funext fun a => Fin.ext (by
    match a with
    | ⟨0, _⟩ => exact lhs_row _ _
    | ⟨1, _⟩ => exact (lhs_col _ _).trans hk)
  have er : dot_S64x1024_S1024x512_S64x512_1_0_0_1_n_n.rhsIdx (ix2 p q) ((ValueIdx.contrEquiv1 dot_S64x1024_S1024x512_S64x512_1_0_0_1_n_n 1024 rfl rfl).symm k) = ix2 k q := funext fun a => Fin.ext (by
    match a with
    | ⟨0, _⟩ => exact (rhs_row _ _).trans hk
    | ⟨1, _⟩ => exact rhs_col _ _)
  rw [el, er]

/-! ## The dense/LIF body -/

/-- The potential before the reset, at `(p, q)` of the tile. -/
theorem potential_apply (x : Vec Ideal S64x1024 .f32) (w : Vec Ideal S1024x512 .f32) (b : Vec Ideal S512 .f32) (v : Vec Ideal S64x512 .f32) (p : Fin 64) (q : Fin 512) :
    k0_pay1 x w b v (ix2 p q)
      = Ideal.ofBits .f32 0x3F733333#32 * v (ix2 p q) + ((∑ k : Fin 1024, x (ix2 p k) * w (ix2 k q)) + b (ix1 q)) := by
  unfold k0_pay1
  rw [addf_apply, mulf_apply, addf_apply, broadcast_apply, product_apply, broadcastTo_1b_ab_apply, shapeCast_a_1a_apply]
  rfl

/-- A one-bit word zero-extended to 32 bits and converted as a signed integer is the bit as a number: what the
    unsigned conversion of the bit itself gives. -/
theorem bit_as_number (c : BitVec 1) :
    FloatOps.sitofp (F := Ideal) .f32 (c.setWidth 32) = FloatOps.uitofp (F := Ideal) .f32 c := by
  show (((c.setWidth 32).toInt : ℝ) : EReal) = ((c.toNat : ℝ) : EReal)
  have h : ∀ c : BitVec 1, (c.setWidth 32).toInt = (c.toNat : ℤ) := by decide
  rw [h c]
  norm_cast

/-- The spike at `(p, q)`: the indicator of `potential − 1 > 0`. -/
theorem spike_apply (x : Vec Ideal S64x1024 .f32) (w : Vec Ideal S1024x512 .f32) (b : Vec Ideal S512 .f32) (v : Vec Ideal S64x512 .f32) (p : Fin 64) (q : Fin 512) :
    k0_pay2 x w b v (ix2 p q)
      = FloatOps.uitofp (F := Ideal) .f32 (FloatOps.cmpf (F := Ideal) .ogt (k0_pay1 x w b v (ix2 p q) - Ideal.ofBits .f32 0x3F800000#32) (Ideal.ofBits .f32 0x00000000#32)) := by
  unfold k0_pay2
  rw [sitofp_apply, extui_apply, bit_as_number]
  rfl

/-- The new membrane potential at `(p, q)`: the potential less the spike. -/
theorem membrane_apply (x : Vec Ideal S64x1024 .f32) (w : Vec Ideal S1024x512 .f32) (b : Vec Ideal S512 .f32) (v : Vec Ideal S64x512 .f32) (p : Fin 64) (q : Fin 512) :
    k0_pay3 x w b v (ix2 p q) = k0_pay1 x w b v (ix2 p q) - k0_pay2 x w b v (ix2 p q) := rfl

/-- The bias trace at any entry of the tile: `β · e + 1`. -/
theorem biasTrace_apply (e : Vec Ideal S64x512 .f32) (j : S64x512.Idx) :
    k0_pay4 e j = Ideal.ofBits .f32 0x3F733333#32 * e j + Ideal.ofBits .f32 0x3F800000#32 := rfl

/-! ## The trace body -/

/-- The weight trace at `(i, j, l)` of the tile: `β · E(i,j,l) + x(i,j)`. -/
theorem weightTrace_apply (x : Vec Ideal S16x128 .f32) (E : Vec Ideal S16x128x1024 .f32) (i : Fin 16) (j : Fin 128) (l : Fin 1024) :
    k1_pay1 x E (ix3 i j l) = Ideal.ofBits .f32 0x3F733333#32 * E (ix3 i j l) + x (ix2 i j) := by
  unfold k1_pay1
  rw [addf_apply, mulf_apply, broadcast_apply, broadcastTo_ab1_abn_apply, shapeCast_ab_ab1_apply]
  rfl

end Cert.KernelIdeal.Body

end
-- ==== Proof.Spec.lean ====
import Idealize.ShloMosaic.PureOps.Ideal
import Idealize.ShloMosaic.Lib.ValueIdx

/-!
# One step of a dense layer followed by leaky integrate-and-fire neurons, with eligibility traces

For a batch of 64 inputs `x` of width 1024, weights `W : [1024, 1024]`, biases `b`, membrane potentials `V` and
the traces `E_W : [64, 1024, 1024]`, `E_b : [64, 1024]`, over the extended reals:

* `potential (r, h) = β · V(r,h) + (Σₖ x(r,k) · W(k,h) + b(h))` — the leaky integration of the dense output;
* `fired u` is the indicator of `u − 1 > 0`: the spike;
* the new membrane potential is `potential − fired potential` (a soft reset by the spike);
* the traces decay by `β` and take the step's sensitivities: `E_W' (r,k,h) = β · E_W (r,k,h) + x(r,k)` and
  `E_b' = β · E_b + 1`.

`β`, `1` and `0` are kept as the binary words both programs print; nothing here depends on their values.
No program is imported: both sides are compared with these functions.
-/

noncomputable section

namespace Cert.LifStep

open Idealize.ShloMosaic Idealize.ShloMosaic.ValueIdx

/-- The leak `β`, the threshold `1` (also the bias trace's increment) and `0`, as printed. -/
abbrev leak : Ideal .f32 := Ideal.ofBits .f32 0x3F733333#32
abbrev unit : Ideal .f32 := Ideal.ofBits .f32 0x3F800000#32
abbrev nought : Ideal .f32 := Ideal.ofBits .f32 0x00000000#32

/-- The spike of a neuron at potential `u`: the indicator of `u − 1 > 0`. -/
def fired (u : Ideal .f32) : Ideal .f32 :=
  FloatOps.uitofp (F := Ideal) .f32 (FloatOps.cmpf (F := Ideal) .ogt (u - unit) nought)

section Dense

variable (W : FVec Ideal ⟨2, ![1024, 1024]⟩ .f32) (b : FVec Ideal ⟨1, ![1024]⟩ .f32)
  (V x : FVec Ideal ⟨2, ![64, 1024]⟩ .f32)

/-- The potential of neuron `h` on input row `r` before the reset. -/
def potential (r : Fin 64) (h : Fin 1024) : Ideal .f32 :=
  leak * V (ix2 r h) + ((∑ k : Fin 1024, x (ix2 r k) * W (ix2 k h)) + b (ix1 h))

/-- The spikes. -/
def spikes : FVec Ideal ⟨2, ![64, 1024]⟩ .f32 := fun i => fired (potential W b V x (i 0) (i 1))

/-- The membrane potentials after the soft reset. -/
def membrane : FVec Ideal ⟨2, ![64, 1024]⟩ .f32 := fun i =>
  potential W b V x (i 0) (i 1) - fired (potential W b V x (i 0) (i 1))

/-- An index given by its coordinates' values reads the spike of that row and neuron. -/
theorem spikes_at (i : (⟨2, ![64, 1024]⟩ : Shape).Idx) (r : Fin 64) (h : Fin 1024) (h0 : (i 0).val = r.val) (h1 : (i 1).val = h.val) :
    spikes W b V x i = fired (potential W b V x r h) := by
  obtain rfl : i 0 = r := Fin.ext h0
  obtain rfl : i 1 = h := Fin.ext h1
  rfl

theorem membrane_at (i : (⟨2, ![64, 1024]⟩ : Shape).Idx) (r : Fin 64) (h : Fin 1024) (h0 : (i 0).val = r.val) (h1 : (i 1).val = h.val) :
    membrane W b V x i = potential W b V x r h - fired (potential W b V x r h) := by
  obtain rfl : i 0 = r := Fin.ext h0
  obtain rfl : i 1 = h := Fin.ext h1
  rfl

end Dense

/-- The bias trace after the step. -/
def biasTrace (E : FVec Ideal ⟨2, ![64, 1024]⟩ .f32) : FVec Ideal ⟨2, ![64, 1024]⟩ .f32 := fun i =>
  leak * E i + unit

theorem biasTrace_at (E : FVec Ideal ⟨2, ![64, 1024]⟩ .f32) (i : (⟨2, ![64, 1024]⟩ : Shape).Idx) (r : Fin 64) (h : Fin 1024)
    (h0 : (i 0).val = r.val) (h1 : (i 1).val = h.val) : biasTrace E i = leak * E (ix2 r h) + unit := by
  obtain rfl : i = ix2 r h := funext fun a => Fin.ext (by match a with | ⟨0, _⟩ => exact h0 | ⟨1, _⟩ => exact h1)
  rfl

/-- The weight trace after the step. -/
def weightTrace (E : FVec Ideal ⟨3, ![64, 1024, 1024]⟩ .f32) (x : FVec Ideal ⟨2, ![64, 1024]⟩ .f32) :
    FVec Ideal ⟨3, ![64, 1024, 1024]⟩ .f32 := fun i => leak * E i + x (ix2 (i 0) (i 1))

theorem weightTrace_at (E : FVec Ideal ⟨3, ![64, 1024, 1024]⟩ .f32) (x : FVec Ideal ⟨2, ![64, 1024]⟩ .f32)
    (i : (⟨3, ![64, 1024, 1024]⟩ : Shape).Idx) (r : Fin 64) (k h : Fin 1024)
    (h0 : (i 0).val = r.val) (h1 : (i 1).val = k.val) (h2 : (i 2).val = h.val) :
    weightTrace E x i = leak * E (ix3 r k h) + x (ix2 r k) := by
  obtain rfl : i = ix3 r k h :=
    funext fun a => Fin.ext (by match a with | ⟨0, _⟩ => exact h0 | ⟨1, _⟩ => exact h1 | ⟨2, _⟩ => exact h2)
  rfl

end Cert.LifStep

end
-- ==== Proof.DenseArrays.lean ====
import proofs.«168244_j60894046323057_1_alg».proof.Proof.Gen.KernelIdeal.Frame
import proofs.«168244_j60894046323057_1_alg».proof.Proof.Body
import proofs.«168244_j60894046323057_1_alg».proof.Proof.Spec
import Idealize.ShloMosaic.Lib.Pipeline.Value

/-!
# The dense/LIF region: its three result arrays as the step's functions of the arrays it finds

The region runs the body at two grid points; point `t` sees the whole input, column tile `t` (512 neurons) of the
weights, biases, potentials and bias trace, and writes back column tile `t` of the new potentials, the spikes and the
new bias trace. Each block is read where it sits in its array (a block's coordinate is index × size + the coordinate
inside the block), so the body's potential at `(p, q)` of tile `t` is the step's potential of row `p` and neuron
`512 t + q`; what a point writes back is then its tile of one whole-array function, the two tiles cover the array,
and the array ends at that function. Everything is stated at a parameter `V`: the arrays as the region finds them.
-/

set_option maxRecDepth 16384

noncomputable section

namespace Cert.KernelIdeal.Dense

open Cert.KernelIdeal Cert.KernelIdeal.Gen Cert.LifStep
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the two grid points: the input is whole at both, every tiled window is at
    column tile `t`. -/
theorem tiles : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 1) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ t.val < 2 :=
  (by decide +kernel : ∀ t : Fin grid0.N, _)

/-- The input window's block at either point is the whole input. -/
theorem input_block (c : Dev nD) (t : Fin cfg0.N) (p : Fin 64) (k : Fin 1024) :
    (iblk0 V c 0 t : Vec Ideal S64x1024 .f32) (ix2 p k) = (V c main_arg5 : FVec Ideal S64x1024 .f32) (ix2 p k) := by
  obtain ⟨e0, e1, -⟩ := tiles t
  unfold iblk0
  rw [View.read_apply]
  show V c main_arg5 _ = V c main_arg5 _
  refine congrArg (V c main_arg5) (funext fun a => Fin.ext ?_)
  match a with
  | ⟨0, _⟩ => show win0_0.index t (0 : Fin 2) * 64 + 1 * p.val = p.val; omega
  | ⟨1, _⟩ => show win0_0.index t (1 : Fin 2) * 1024 + 1 * k.val = k.val; omega

/-- The weight window's block at point `t` is columns `512 t … 512 t + 511` of the weights. -/
theorem weight_block (c : Dev nD) (t : Fin cfg0.N) (k : Fin 1024) (q : Fin 512) (h : Fin 1024) (hh : h.val = 512 * t.val + q.val) :
    (iblk0 V c 1 t : Vec Ideal S1024x512 .f32) (ix2 k q) = (V c main_arg0 : FVec Ideal S1024x1024 .f32) (ix2 k h) := by
  obtain ⟨-, -, e0, e1, -⟩ := tiles t
  unfold iblk0
  rw [View.read_apply]
  show V c main_arg0 _ = V c main_arg0 _
  refine congrArg (V c main_arg0) (funext fun a => Fin.ext ?_)
  match a with
  | ⟨0, _⟩ => show win0_1.index t (0 : Fin 2) * 1024 + 1 * k.val = k.val; omega
  | ⟨1, _⟩ => show win0_1.index t (1 : Fin 2) * 512 + 1 * q.val = h.val; omega

/-- The bias window's block at point `t` is entries `512 t … 512 t + 511` of the biases. -/
theorem bias_block (c : Dev nD) (t : Fin cfg0.N) (q : Fin 512) (h : Fin 1024) (hh : h.val = 512 * t.val + q.val) :
    (iblk0 V c 2 t : Vec Ideal S512 .f32) (ix1 q) = (V c main_arg1 : FVec Ideal S1024 .f32) (ix1 h) := by
  obtain ⟨-, -, -, -, e0, -⟩ := tiles t
  unfold iblk0
  rw [View.read_apply]
  show V c main_arg1 _ = V c main_arg1 _
  refine congrArg (V c main_arg1) (funext fun a => Fin.ext ?_)
  match a with
  | ⟨0, _⟩ => show win0_2.index t (0 : Fin 1) * 512 + 1 * q.val = h.val; omega

/-- The membrane window's block at point `t` is columns `512 t … 512 t + 511` of the potentials. -/
theorem membrane_in_block (c : Dev nD) (t : Fin cfg0.N) (p : Fin 64) (q : Fin 512) (h : Fin 1024) (hh : h.val = 512 * t.val + q.val) :
    (iblk0 V c 3 t : Vec Ideal S64x512 .f32) (ix2 p q) = (V c main_arg2 : FVec Ideal S64x1024 .f32) (ix2 p h) := by
  obtain ⟨-, -, -, -, -, e0, e1, -⟩ := tiles t
  unfold iblk0
  rw [View.read_apply]
  show V c main_arg2 _ = V c main_arg2 _
  refine congrArg (V c main_arg2) (funext fun a => Fin.ext ?_)
  match a with
  | ⟨0, _⟩ => show win0_3.index t (0 : Fin 2) * 64 + 1 * p.val = p.val; omega
  | ⟨1, _⟩ => show win0_3.index t (1 : Fin 2) * 512 + 1 * q.val = h.val; omega

/-- The bias-trace window's block at point `t` is columns `512 t … 512 t + 511` of the trace. -/
theorem trace_in_block (c : Dev nD) (t : Fin cfg0.N) (p : Fin 64) (q : Fin 512) (h : Fin 1024) (hh : h.val = 512 * t.val + q.val) :
    (iblk0 V c 4 t : Vec Ideal S64x512 .f32) (ix2 p q) = (V c main_arg4 : FVec Ideal S64x1024 .f32) (ix2 p h) := by
  obtain ⟨-, -, -, -, -, -, -, e0, e1, -⟩ := tiles t
  unfold iblk0
  rw [View.read_apply]
  show V c main_arg4 _ = V c main_arg4 _
  refine congrArg (V c main_arg4) (funext fun a => Fin.ext ?_)
  match a with
  | ⟨0, _⟩ => show win0_4.index t (0 : Fin 2) * 64 + 1 * p.val = p.val; omega
  | ⟨1, _⟩ => show win0_4.index t (1 : Fin 2) * 512 + 1 * q.val = h.val; omega

/-- The body's potential at `(p, q)` of tile `t` is the step's potential of row `p`, neuron `512 t + q`. -/
theorem potential_block (c : Dev nD) (t : Fin cfg0.N) (p : Fin 64) (q : Fin 512) (h : Fin 1024) (hh : h.val = 512 * t.val + q.val) :
    k0_pay1 (iblk0 V c 0 t) (iblk0 V c 1 t) (iblk0 V c 2 t) (iblk0 V c 3 t) (ix2 p q)
      = potential (V c main_arg0) (V c main_arg1) (V c main_arg2) (V c main_arg5) p h := by
  refine (Body.potential_apply (iblk0 V c 0 t) (iblk0 V c 1 t) (iblk0 V c 2 t) (iblk0 V c 3 t) p q).trans ?_
  simp only [input_block V c t p, fun k => weight_block V c t k q h hh, membrane_in_block V c t p q h hh, bias_block V c t q h hh]
  rfl

/-- WHAT POINT `t` WRITES BACK to the membrane potentials is column tile `t` of the step's new potentials. -/
theorem membrane_flushed (c : Dev nD) (t : Fin cfg0.N) :
    (dat0 V c).flushed 5 t = ((cfg0.win 5).blk t).view.read (Elt Ideal) (membrane (V c main_arg0) (V c main_arg1) (V c main_arg2) (V c main_arg5)) := by
  obtain ⟨-, -, -, -, -, -, -, -, -, e50, e51, e60, e61, e70, e71, ht⟩ := tiles t
  show (cfg0.win 5).cut (grid0.coords t) ((dat0 V c).after 5 t) = _
  rw [after0_5]
  unfold out0_5
  rw [View.canon_unit_zero hz2]
  simp only [View.ld_unit_zero (S := S64x1024) hz2, View.ld_unit_zero (S := S1024x512) hz2, View.ld_unit_zero (S := S512) hz1, View.ld_unit_zero (S := S64x512) hz2]
  funext j
  obtain ⟨p, q, rfl⟩ : ∃ (p : Fin 64) (q : Fin 512), j = ix2 p q := ⟨j 0, j 1, eq_ix2 (n0 := 64) (n1 := 512) j⟩
  have hq : 512 * t.val + q.val < 1024 := by have := q.isLt; omega
  show k0_pay3 (iblk0 V c 0 t) (iblk0 V c 1 t) (iblk0 V c 2 t) (iblk0 V c 3 t) (ix2 p q)
    = membrane (V c main_arg0) (V c main_arg1) (V c main_arg2) (V c main_arg5) (((cfg0.win 5).blk t).view.emb (ix2 p q))
  rw [membrane_at (V c main_arg0) (V c main_arg1) (V c main_arg2) (V c main_arg5) _ p ⟨512 * t.val + q.val, hq⟩
      (show win0_5.index t (0 : Fin 2) * 64 + 1 * p.val = p.val by omega)
      (show win0_5.index t (1 : Fin 2) * 512 + 1 * q.val = 512 * t.val + q.val by omega)]
  refine (Body.membrane_apply (iblk0 V c 0 t) (iblk0 V c 1 t) (iblk0 V c 2 t) (iblk0 V c 3 t) p q).trans ?_
  rw [Body.spike_apply (iblk0 V c 0 t) (iblk0 V c 1 t) (iblk0 V c 2 t) (iblk0 V c 3 t) p q, potential_block V c t p q ⟨_, hq⟩ rfl]
  rfl

/-- WHAT POINT `t` WRITES BACK to the spikes is column tile `t` of the step's spikes. -/
theorem spikes_flushed (c : Dev nD) (t : Fin cfg0.N) :
    (dat0 V c).flushed 6 t = ((cfg0.win 6).blk t).view.read (Elt Ideal) (spikes (V c main_arg0) (V c main_arg1) (V c main_arg2) (V c main_arg5)) := by
  obtain ⟨-, -, -, -, -, -, -, -, -, e50, e51, e60, e61, e70, e71, ht⟩ := tiles t
  show (cfg0.win 6).cut (grid0.coords t) ((dat0 V c).after 6 t) = _
  rw [after0_6]
  unfold out0_6
  rw [View.canon_unit_zero hz2]
  simp only [View.ld_unit_zero (S := S64x1024) hz2, View.ld_unit_zero (S := S1024x512) hz2, View.ld_unit_zero (S := S512) hz1, View.ld_unit_zero (S := S64x512) hz2]
  funext j
  obtain ⟨p, q, rfl⟩ : ∃ (p : Fin 64) (q : Fin 512), j = ix2 p q := ⟨j 0, j 1, eq_ix2 (n0 := 64) (n1 := 512) j⟩
  have hq : 512 * t.val + q.val < 1024 := by have := q.isLt; omega
  show k0_pay2 (iblk0 V c 0 t) (iblk0 V c 1 t) (iblk0 V c 2 t) (iblk0 V c 3 t) (ix2 p q)
    = spikes (V c main_arg0) (V c main_arg1) (V c main_arg2) (V c main_arg5) (((cfg0.win 6).blk t).view.emb (ix2 p q))
  rw [spikes_at (V c main_arg0) (V c main_arg1) (V c main_arg2) (V c main_arg5) _ p ⟨512 * t.val + q.val, hq⟩
      (show win0_6.index t (0 : Fin 2) * 64 + 1 * p.val = p.val by omega)
      (show win0_6.index t (1 : Fin 2) * 512 + 1 * q.val = 512 * t.val + q.val by omega)]
  rw [Body.spike_apply (iblk0 V c 0 t) (iblk0 V c 1 t) (iblk0 V c 2 t) (iblk0 V c 3 t) p q, potential_block V c t p q ⟨_, hq⟩ rfl]
  rfl

/-- WHAT POINT `t` WRITES BACK to the bias trace is column tile `t` of the step's bias trace. -/
theorem biasTrace_flushed (c : Dev nD) (t : Fin cfg0.N) :
    (dat0 V c).flushed 7 t = ((cfg0.win 7).blk t).view.read (Elt Ideal) (biasTrace (V c main_arg4)) := by
  obtain ⟨-, -, -, -, -, -, -, -, -, e50, e51, e60, e61, e70, e71, ht⟩ := tiles t
  show (cfg0.win 7).cut (grid0.coords t) ((dat0 V c).after 7 t) = _
  rw [after0_7]
  unfold out0_7
  rw [View.canon_unit_zero hz2]
  simp only [View.ld_unit_zero (S := S64x1024) hz2, View.ld_unit_zero (S := S1024x512) hz2, View.ld_unit_zero (S := S512) hz1, View.ld_unit_zero (S := S64x512) hz2]
  funext j
  obtain ⟨p, q, rfl⟩ : ∃ (p : Fin 64) (q : Fin 512), j = ix2 p q := ⟨j 0, j 1, eq_ix2 (n0 := 64) (n1 := 512) j⟩
  have hq : 512 * t.val + q.val < 1024 := by have := q.isLt; omega
  show k0_pay4 (iblk0 V c 4 t) (ix2 p q)
    = biasTrace (V c main_arg4) (((cfg0.win 7).blk t).view.emb (ix2 p q))
  rw [biasTrace_at (V c main_arg4) _ p ⟨512 * t.val + q.val, hq⟩
      (show win0_7.index t (0 : Fin 2) * 64 + 1 * p.val = p.val by omega)
      (show win0_7.index t (1 : Fin 2) * 512 + 1 * q.val = 512 * t.val + q.val by omega)]
  refine (Body.biasTrace_apply (iblk0 V c 4 t) (ix2 p q)).trans ?_
  rw [trace_in_block V c t p q ⟨_, hq⟩ rfl]

/-- An index of the array is in point `t`'s block of window 5 iff each coordinate is in the block's range on its axis. -/
theorem mem_tile5 (t : Fin cfg0.N) (i : S64x1024.Idx) :
    i ∈ ((cfg0.win 5).blk t).view.set ↔ ∀ a : Fin 2, win0_5.index t a * S64x512.size a ≤ (i a).val ∧ (i a).val < win0_5.index t a * S64x512.size a + S64x512.size a := by
  show i ∈ ((View.whole main_v0_0).slice (win0_5.rect t)).set ↔ _
  rw [View.set_slice_whole, Rect.mem_set_unit]
  exact Iff.rfl

/-- The two column tiles cover the array: column `h` lies in tile `h / 512`. -/
theorem tiles_cover5 (i : S64x1024.Idx) : ∃ t : Fin cfg0.N, (cfg0.win 5).flush t = true ∧ i ∈ ((cfg0.win 5).blk t).view.set := by
  have hi0 : (i 0).val < 64 := (i 0).isLt
  have hi1 : (i 1).val < 1024 := (i 1).isLt
  have hN : cfg0.N = 2 := N_0
  refine ⟨⟨(i 1).val / 512, by rw [hN]; omega⟩, flush0_5 _, ?_⟩
  rw [mem_tile5]
  obtain ⟨-, -, -, -, -, -, -, -, -, e50, e51, e60, e61, e70, e71, -⟩ := tiles ⟨(i 1).val / 512, by rw [hN]; omega⟩
  intro a
  match a with
  | ⟨0, _⟩ => show win0_5.index _ (0 : Fin 2) * 64 ≤ (i 0).val ∧ (i 0).val < win0_5.index _ (0 : Fin 2) * 64 + 64; rw [e50]; omega
  | ⟨1, _⟩ => show win0_5.index _ (1 : Fin 2) * 512 ≤ (i 1).val ∧ (i 1).val < win0_5.index _ (1 : Fin 2) * 512 + 512; rw [e51]; show (i 1).val / 512 * 512 ≤ (i 1).val ∧ (i 1).val < (i 1).val / 512 * 512 + 512; omega

/-- An index of the array is in point `t`'s block of window 6 iff each coordinate is in the block's range on its axis. -/
theorem mem_tile6 (t : Fin cfg0.N) (i : S64x1024.Idx) :
    i ∈ ((cfg0.win 6).blk t).view.set ↔ ∀ a : Fin 2, win0_6.index t a * S64x512.size a ≤ (i a).val ∧ (i a).val < win0_6.index t a * S64x512.size a + S64x512.size a := by
  show i ∈ ((View.whole main_v0_1).slice (win0_6.rect t)).set ↔ _
  rw [View.set_slice_whole, Rect.mem_set_unit]
  exact Iff.rfl

/-- The two column tiles cover the array: column `h` lies in tile `h / 512`. -/
theorem tiles_cover6 (i : S64x1024.Idx) : ∃ t : Fin cfg0.N, (cfg0.win 6).flush t = true ∧ i ∈ ((cfg0.win 6).blk t).view.set := by
  have hi0 : (i 0).val < 64 := (i 0).isLt
  have hi1 : (i 1).val < 1024 := (i 1).isLt
  have hN : cfg0.N = 2 := N_0
  refine ⟨⟨(i 1).val / 512, by rw [hN]; omega⟩, flush0_6 _, ?_⟩
  rw [mem_tile6]
  obtain ⟨-, -, -, -, -, -, -, -, -, e50, e51, e60, e61, e70, e71, -⟩ := tiles ⟨(i 1).val / 512, by rw [hN]; omega⟩
  intro a
  match a with
  | ⟨0, _⟩ => show win0_6.index _ (0 : Fin 2) * 64 ≤ (i 0).val ∧ (i 0).val < win0_6.index _ (0 : Fin 2) * 64 + 64; rw [e60]; omega
  | ⟨1, _⟩ => show win0_6.index _ (1 : Fin 2) * 512 ≤ (i 1).val ∧ (i 1).val < win0_6.index _ (1 : Fin 2) * 512 + 512; rw [e61]; show (i 1).val / 512 * 512 ≤ (i 1).val ∧ (i 1).val < (i 1).val / 512 * 512 + 512; omega

/-- An index of the array is in point `t`'s block of window 7 iff each coordinate is in the block's range on its axis. -/
theorem mem_tile7 (t : Fin cfg0.N) (i : S64x1024.Idx) :
    i ∈ ((cfg0.win 7).blk t).view.set ↔ ∀ a : Fin 2, win0_7.index t a * S64x512.size a ≤ (i a).val ∧ (i a).val < win0_7.index t a * S64x512.size a + S64x512.size a := by
  show i ∈ ((View.whole main_v0_2).slice (win0_7.rect t)).set ↔ _
  rw [View.set_slice_whole, Rect.mem_set_unit]
  exact Iff.rfl

/-- The two column tiles cover the array: column `h` lies in tile `h / 512`. -/
theorem tiles_cover7 (i : S64x1024.Idx) : ∃ t : Fin cfg0.N, (cfg0.win 7).flush t = true ∧ i ∈ ((cfg0.win 7).blk t).view.set := by
  have hi0 : (i 0).val < 64 := (i 0).isLt
  have hi1 : (i 1).val < 1024 := (i 1).isLt
  have hN : cfg0.N = 2 := N_0
  refine ⟨⟨(i 1).val / 512, by rw [hN]; omega⟩, flush0_7 _, ?_⟩
  rw [mem_tile7]
  obtain ⟨-, -, -, -, -, -, -, -, -, e50, e51, e60, e61, e70, e71, -⟩ := tiles ⟨(i 1).val / 512, by rw [hN]; omega⟩
  intro a
  match a with
  | ⟨0, _⟩ => show win0_7.index _ (0 : Fin 2) * 64 ≤ (i 0).val ∧ (i 0).val < win0_7.index _ (0 : Fin 2) * 64 + 64; rw [e70]; omega
  | ⟨1, _⟩ => show win0_7.index _ (1 : Fin 2) * 512 ≤ (i 1).val ∧ (i 1).val < win0_7.index _ (1 : Fin 2) * 512 + 512; rw [e71]; show (i 1).val / 512 * 512 ≤ (i 1).val ∧ (i 1).val < (i 1).val / 512 * 512 + 512; omega

/-! ## The three result arrays after the region -/

/-- The membrane potentials end at the step's new potentials of the arrays as the region finds them. -/
theorem membrane_array (c : Dev nD) : (dat0 V c).arrAt 5 cfg0.N = membrane (V c main_arg0) (V c main_arg1) (V c main_arg2) (V c main_arg5) :=
  (dat0 V c).arrAt_eq_of_cover 5 (membrane (V c main_arg0) (V c main_arg1) (V c main_arg2) (V c main_arg5)) (fun t _ => membrane_flushed V c t) tiles_cover5

/-- The spikes end at the step's spikes. -/
theorem spikes_array (c : Dev nD) : (dat0 V c).arrAt 6 cfg0.N = spikes (V c main_arg0) (V c main_arg1) (V c main_arg2) (V c main_arg5) :=
  (dat0 V c).arrAt_eq_of_cover 6 (spikes (V c main_arg0) (V c main_arg1) (V c main_arg2) (V c main_arg5)) (fun t _ => spikes_flushed V c t) tiles_cover6

/-- The bias trace ends at the step's bias trace. -/
theorem biasTrace_array (c : Dev nD) : (dat0 V c).arrAt 7 cfg0.N = biasTrace (V c main_arg4) :=
  (dat0 V c).arrAt_eq_of_cover 7 (biasTrace (V c main_arg4)) (fun t _ => biasTrace_flushed V c t) tiles_cover7

end Cert.KernelIdeal.Dense

end
-- ==== Proof.TraceArrays.lean ====
import proofs.«168244_j60894046323057_1_alg».proof.Proof.Gen.KernelIdeal.Frame
import proofs.«168244_j60894046323057_1_alg».proof.Proof.Body
import proofs.«168244_j60894046323057_1_alg».proof.Proof.Spec
import Idealize.ShloMosaic.Lib.Pipeline.Value

/-!
# The trace region: the weight trace as the step's function of the arrays it finds

The region runs the body over a 4 × 8 grid; the point at block `(g, d)` sees rows `16 g …`, columns `128 d …` of
the old trace (all 1024 neurons) and the same tile of the input, and writes back that tile of the new trace:
`β · E (r, k, h) + x (r, k)`. The index maps of the three windows agree at every point and reach every block, so each
write-back is its tile of one whole-array function and the tiles cover the array.
-/

set_option maxRecDepth 16384

noncomputable section

namespace Cert.KernelIdeal.Trace

open Cert.KernelIdeal Cert.KernelIdeal.Gen Cert.LifStep
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: both input windows move with the output window, whose block indices
    stay in 4 × 8 × 1. -/
theorem tiles : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 2) = win1_2.index t (0 : Fin 3) ∧ win1_1.index t (1 : Fin 2) = win1_2.index t (1 : Fin 3)
    ∧ win1_2.index t (0 : Fin 3) ≤ 3 ∧ win1_2.index t (1 : Fin 3) ≤ 7 ∧ win1_2.index t (2 : Fin 3) = 0 :=
  (by decide +kernel : ∀ t : Fin grid1.N, _)

/-- Every block of the array is some point's. -/
theorem tiles_onto : ∀ (g : Fin 4) (d : Fin 8), ∃ t : Fin cfg1.N, win1_2.index t = ![g.val, d.val, 0] :=
  (by decide +kernel : ∀ (g : Fin 4) (d : Fin 8), ∃ t : Fin grid1.N, win1_2.index t = ![g.val, d.val, 0])

/-- The old trace's block at point `t`, where it sits in the trace. -/
theorem trace_block (c : Dev nD) (t : Fin cfg1.N) (a : Fin 16) (b : Fin 128) (l : Fin 1024) (r : Fin 64) (k : Fin 1024)
    (hr : r.val = win1_2.index t (0 : Fin 3) * 16 + a.val) (hk : k.val = win1_2.index t (1 : Fin 3) * 128 + b.val) :
    (iblk1 V c 0 t : Vec Ideal S16x128x1024 .f32) (ix3 a b l) = (V c main_arg3 : FVec Ideal S64x1024x1024 .f32) (ix3 r k l) := by
  obtain ⟨e0, e1, e2, -⟩ := tiles t
  unfold iblk1
  rw [View.read_apply]
  show V c main_arg3 _ = V c main_arg3 _
  refine congrArg (V c main_arg3) (funext fun ax => Fin.ext ?_)
  match ax with
  | ⟨0, _⟩ => show win1_0.index t (0 : Fin 3) * 16 + 1 * a.val = r.val; omega
  | ⟨1, _⟩ => show win1_0.index t (1 : Fin 3) * 128 + 1 * b.val = k.val; omega
  | ⟨2, _⟩ => show win1_0.index t (2 : Fin 3) * 1024 + 1 * l.val = l.val; omega

/-- The input's block at point `t`, where it sits in the input. -/
theorem input_block (c : Dev nD) (t : Fin cfg1.N) (a : Fin 16) (b : Fin 128) (r : Fin 64) (k : Fin 1024)
    (hr : r.val = win1_2.index t (0 : Fin 3) * 16 + a.val) (hk : k.val = win1_2.index t (1 : Fin 3) * 128 + b.val) :
    (iblk1 V c 1 t : Vec Ideal S16x128 .f32) (ix2 a b) = (V c main_arg5 : FVec Ideal S64x1024 .f32) (ix2 r k) := by
  obtain ⟨-, -, -, e0, e1, -⟩ := tiles t
  unfold iblk1
  rw [View.read_apply]
  show V c main_arg5 _ = V c main_arg5 _
  refine congrArg (V c main_arg5) (funext fun ax => Fin.ext ?_)
  match ax with
  | ⟨0, _⟩ => show win1_1.index t (0 : Fin 2) * 16 + 1 * a.val = r.val; omega
  | ⟨1, _⟩ => show win1_1.index t (1 : Fin 2) * 128 + 1 * b.val = k.val; omega

/-- WHAT POINT `t` WRITES BACK is its tile of the step's new weight trace. -/
theorem weightTrace_flushed (c : Dev nD) (t : Fin cfg1.N) :
    (dat1 V c).flushed 2 t = ((cfg1.win 2).blk t).view.read (Elt Ideal) (weightTrace (V c main_arg3) (V c main_arg5)) := by
  obtain ⟨-, -, -, -, -, b0, b1, b2⟩ := tiles t
  show (cfg1.win 2).cut (grid1.coords t) ((dat1 V c).after 2 t) = _
  rw [after1_2]
  unfold out1_2
  rw [View.canon_unit_zero hz3]
  simp only [View.ld_unit_zero (S := S16x128) hz2, View.ld_unit_zero (S := S16x128x1024) hz3]
  funext j
  obtain ⟨a, b, l, rfl⟩ : ∃ (a : Fin 16) (b : Fin 128) (l : Fin 1024), j = ix3 a b l :=
    ⟨j 0, j 1, j 2, eq_ix3 (n0 := 16) (n1 := 128) (n2 := 1024) j⟩
  have hr : win1_2.index t (0 : Fin 3) * 16 + a.val < 64 := by have := a.isLt; omega
  have hk : win1_2.index t (1 : Fin 3) * 128 + b.val < 1024 := by have := b.isLt; omega
  show k1_pay1 (iblk1 V c 1 t) (iblk1 V c 0 t) (ix3 a b l)
    = weightTrace (V c main_arg3) (V c main_arg5) (((cfg1.win 2).blk t).view.emb (ix3 a b l))
  rw [weightTrace_at (V c main_arg3) (V c main_arg5) _ ⟨_, hr⟩ ⟨_, hk⟩ l
      (show win1_2.index t (0 : Fin 3) * 16 + 1 * a.val = win1_2.index t (0 : Fin 3) * 16 + a.val by omega)
      (show win1_2.index t (1 : Fin 3) * 128 + 1 * b.val = win1_2.index t (1 : Fin 3) * 128 + b.val by omega)
      (show win1_2.index t (2 : Fin 3) * 1024 + 1 * l.val = l.val by omega)]
  refine (Body.weightTrace_apply (iblk1 V c 1 t) (iblk1 V c 0 t) a b l).trans ?_
  rw [trace_block V c t a b l ⟨_, hr⟩ ⟨_, hk⟩ rfl rfl, input_block V c t a b ⟨_, hr⟩ ⟨_, hk⟩ rfl rfl]

/-- An index of the trace is in point `t`'s block iff each coordinate is in the block's range on its axis. -/
theorem mem_tile (t : Fin cfg1.N) (i : S64x1024x1024.Idx) :
    i ∈ ((cfg1.win 2).blk t).view.set ↔ ∀ a : Fin 3, win1_2.index t a * S16x128x1024.size a ≤ (i a).val ∧ (i a).val < win1_2.index t a * S16x128x1024.size a + S16x128x1024.size a := by
  show i ∈ ((View.whole main_v1).slice (win1_2.rect t)).set ↔ _
  rw [View.set_slice_whole, Rect.mem_set_unit]
  exact Iff.rfl

/-- The 32 tiles cover the trace: entry `(r, k, h)` lies in the tile at block `(r / 16, k / 128)`. -/
theorem tiles_cover (i : S64x1024x1024.Idx) : ∃ t : Fin cfg1.N, (cfg1.win 2).flush t = true ∧ i ∈ ((cfg1.win 2).blk t).view.set := by
  have hi0 : (i 0).val < 64 := (i 0).isLt
  have hi1 : (i 1).val < 1024 := (i 1).isLt
  have hi2 : (i 2).val < 1024 := (i 2).isLt
  obtain ⟨t, ht⟩ := tiles_onto ⟨(i 0).val / 16, by omega⟩ ⟨(i 1).val / 128, by omega⟩
  have q0 : win1_2.index t (0 : Fin 3) = (i 0).val / 16 := congrFun ht 0
  have q1 : win1_2.index t (1 : Fin 3) = (i 1).val / 128 := congrFun ht 1
  have q2 : win1_2.index t (2 : Fin 3) = 0 := congrFun ht 2
  refine ⟨t, flush1_2 t, ?_⟩
  rw [mem_tile]
  intro a
  match a with
  | ⟨0, _⟩ => show win1_2.index t (0 : Fin 3) * 16 ≤ (i 0).val ∧ (i 0).val < win1_2.index t (0 : Fin 3) * 16 + 16; omega
  | ⟨1, _⟩ => show win1_2.index t (1 : Fin 3) * 128 ≤ (i 1).val ∧ (i 1).val < win1_2.index t (1 : Fin 3) * 128 + 128; omega
  | ⟨2, _⟩ => show win1_2.index t (2 : Fin 3) * 1024 ≤ (i 2).val ∧ (i 2).val < win1_2.index t (2 : Fin 3) * 1024 + 1024; omega

/-- The weight trace ends at the step's new trace of the arrays as the region finds them. -/
theorem weightTrace_array (c : Dev nD) : (dat1 V c).arrAt 2 cfg1.N = weightTrace (V c main_arg3) (V c main_arg5) :=
  (dat1 V c).arrAt_eq_of_cover 2 (weightTrace (V c main_arg3) (V c main_arg5)) (fun t _ => weightTrace_flushed V c t) tiles_cover

end Cert.KernelIdeal.Trace

end
-- ==== Proof.KernelResults.lean ====
import proofs.«168244_j60894046323057_1_alg».proof.Proof.KernelRun
import proofs.«168244_j60894046323057_1_alg».proof.Proof.DenseArrays
import proofs.«168244_j60894046323057_1_alg».proof.Proof.TraceArrays

/-!
# The idealized kernel's results as the step's functions of the launch arrays

The run ends with each result array at the fold of the two regions' write-backs over the launch memory. The
dense/LIF region is entered from the launch memory itself, so its three results are the step's new potentials, spikes
and bias trace of the argument arrays. The trace region is entered after it; the two arrays it reads are still as
launched — the old trace is touched by no window of the first region and the input is only read by it — so its
result is the step's new weight trace of the argument arrays. Nothing later writes any of the four.
-/

set_option maxRecDepth 16384

noncomputable section

namespace Cert.KernelIdeal.Results

open Cert.KernelIdeal Cert.KernelIdeal.Gen Cert.LifStep
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The new membrane potentials: written by the first region, kept by the second. -/
theorem membrane_result (c : Dev nD) :
    W2 m ρ c (Proc.devRef .tc main_v0_0) = membrane (m ((c.tc : Thread nD τ).loc main_arg0)) (m ((c.tc : Thread nD τ).loc main_arg1)) (m ((c.tc : Thread nD τ).loc main_arg2)) (m ((c.tc : Thread nD τ).loc main_arg5)) :=
  calc W2 m ρ c (Proc.devRef .tc main_v0_0)
    _ = W1 m ρ c (Proc.devRef .tc main_v0_0) := W2_of_ne m ρ c main_v0_0 (by decide)
    _ = (dat0 (V0 m ρ) c).arrAt 5 cfg0.N := W1_arr m ρ c 5
    _ = membrane (m ((c.tc : Thread nD τ).loc main_arg0)) (m ((c.tc : Thread nD τ).loc main_arg1)) (m ((c.tc : Thread nD τ).loc main_arg2)) (m ((c.tc : Thread nD τ).loc main_arg5)) := Dense.membrane_array (V0 m ρ) c

/-- The spikes. -/
theorem spikes_result (c : Dev nD) :
    W2 m ρ c (Proc.devRef .tc main_v0_1) = spikes (m ((c.tc : Thread nD τ).loc main_arg0)) (m ((c.tc : Thread nD τ).loc main_arg1)) (m ((c.tc : Thread nD τ).loc main_arg2)) (m ((c.tc : Thread nD τ).loc main_arg5)) :=
  calc W2 m ρ c (Proc.devRef .tc main_v0_1)
    _ = W1 m ρ c (Proc.devRef .tc main_v0_1) := W2_of_ne m ρ c main_v0_1 (by decide)
    _ = (dat0 (V0 m ρ) c).arrAt 6 cfg0.N := W1_arr m ρ c 6
    _ = spikes (m ((c.tc : Thread nD τ).loc main_arg0)) (m ((c.tc : Thread nD τ).loc main_arg1)) (m ((c.tc : Thread nD τ).loc main_arg2)) (m ((c.tc : Thread nD τ).loc main_arg5)) := Dense.spikes_array (V0 m ρ) c

/-- The new bias trace. -/
theorem biasTrace_result (c : Dev nD) :
    W2 m ρ c (Proc.devRef .tc main_v0_2) = biasTrace (m ((c.tc : Thread nD τ).loc main_arg4)) :=
  calc W2 m ρ c (Proc.devRef .tc main_v0_2)
    _ = W1 m ρ c (Proc.devRef .tc main_v0_2) := W2_of_ne m ρ c main_v0_2 (by decide)
    _ = (dat0 (V0 m ρ) c).arrAt 7 cfg0.N := W1_arr m ρ c 7
    _ = biasTrace (m ((c.tc : Thread nD τ).loc main_arg4)) := Dense.biasTrace_array (V0 m ρ) c

/-- The old trace reaches the second region as launched: no window of the first region is over it. -/
theorem trace_entry (c : Dev nD) : V1 m ρ c main_arg3 = m ((c.tc : Thread nD τ).loc main_arg3) :=
  W1_of_ne m ρ c main_arg3 (by decide)

/-- The input reaches the second region as launched: the first region only reads it. -/
theorem input_entry (c : Dev nD) : V1 m ρ c main_arg5 = m ((c.tc : Thread nD τ).loc main_arg5) :=
  (W1_arr m ρ c 0).trans (((dat0 (V0 m ρ) c).arrAt_in 0 rfl _).trans (A_eq0 (V0 m ρ) c 0))

/-- The new weight trace: written by the second region from arrays still as launched. -/
theorem weightTrace_result (c : Dev nD) :
    W2 m ρ c (Proc.devRef .tc main_v1) = weightTrace (m ((c.tc : Thread nD τ).loc main_arg3)) (m ((c.tc : Thread nD τ).loc main_arg5)) :=
  calc W2 m ρ c (Proc.devRef .tc main_v1)
    _ = (dat1 (V1 m ρ) c).arrAt 2 cfg1.N := W2_arr m ρ c 2
    _ = weightTrace (V1 m ρ c main_arg3) (V1 m ρ c main_arg5) := Trace.weightTrace_array (V1 m ρ) c
    _ = weightTrace (m ((c.tc : Thread nD τ).loc main_arg3)) (m ((c.tc : Thread nD τ).loc main_arg5)) := by rw [trace_entry, input_entry]

/-- The run, read: every weakly fair execution terminates with the four results at the step's functions of the
    launch arrays and the arguments unchanged. -/
theorem run : θ_run defs (onTc (τ := τ) (main (F := Ideal))) ⟨m, fun _ => 0, ρ⟩ (fun r => ∀ c : Dev nD,
      r.2.mem ((c.tc : Thread nD τ).loc main_v0_0) = membrane (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v1) = weightTrace (m ((c.tc : Thread nD τ).loc main_arg3)) (m ((c.tc : Thread nD τ).loc main_arg5))
      ∧ r.2.mem ((c.tc : Thread nD τ).loc main_v0_2) = biasTrace (m ((c.tc : Thread nD τ).loc main_arg4))
      ∧ r.2.mem ((c.tc : Thread nD τ).loc main_v0_1) = spikes (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c).1.trans (membrane_result m ρ c),
       (h c).2.1.trans (weightTrace_result m ρ c),
       (h c).2.2.1.trans (biasTrace_result m ρ c),
       (h c).2.2.2.1.trans (spikes_result m ρ c),
       (h c).2.2.2.2⟩)
    (Named.run m ρ)

end Cert.KernelIdeal.Results

end
-- ==== Proof.RefStep.lean ====
import proofs.«168244_j60894046323057_1_alg».proof.Proof.Gen.ReferenceIdeal.Read
import proofs.«168244_j60894046323057_1_alg».proof.Proof.Spec

/-!
# The reference computes the step's functions

Each result of the reference's run is read one operation at a time, at an index given by its coordinates:
the `dot_general` is the sum over the contracted axis of `x (r, k) · W (k, h)`, the bias is broadcast along the
rows, the scalar constants are broadcast to every entry, and `x[:, :, None]` broadcast along the last axis reads
`x (r, k)` at `(r, k, h)`. What is left is the step's function of the argument arrays, term for term.
-/

noncomputable section

namespace Cert.ReferenceIdeal.Step

open Cert.ReferenceIdeal Cert.ReferenceIdeal.Gen Cert.ReferenceIdeal.Read Cert.LifStep
open Idealize.ShloMosaic Idealize.ShloMosaic.TcCoe Idealize.ShloMosaic.ValueIdx

variable (W : (⟨S1024x1024, .f32⟩ : BufTy).Contents (Elt Ideal)) (b : (⟨S1024, .f32⟩ : BufTy).Contents (Elt Ideal))
  (V x E_b : (⟨S64x1024, .f32⟩ : BufTy).Contents (Elt Ideal)) (E_W : (⟨S64x1024x1024, .f32⟩ : BufTy).Contents (Elt Ideal))

/-- The contracted product's left operand is read at `(r, k)`, -/
theorem left_at (r : Fin 64) (h k : Fin 1024) : lidx_main_v0 (ix2 r h) k = ix2 r k :=
  funext fun a => Fin.ext (by match a with | ⟨0, _⟩ => rfl | ⟨1, _⟩ => rfl)
/-- its right operand at `(k, h)`, -/
theorem right_at (r : Fin 64) (h k : Fin 1024) : ridx_main_v0 (ix2 r h) k = ix2 k h :=
  funext fun a => Fin.ext (by match a with | ⟨0, _⟩ => rfl | ⟨1, _⟩ => rfl)
/-- and the bias, through its two broadcasts, at `h`. -/
theorem bias_at (r : Fin 64) (h : Fin 1024) : idx_main_v1 (idx_main_v2 (ix2 r h)) = ix1 h :=
  funext fun a => Fin.ext (by match a with | ⟨0, _⟩ => rfl)

/-- The reference's pre-reset potential at `(r, h)`. -/
theorem potential_at (r : Fin 64) (h : Fin 1024) :
    val_main_v6 (F := Ideal) W b V x (ix2 r h) = potential W b V x r h := by
  rw [val_main_v6_apply, val_main_v5_apply, val_main_v4_apply, val_main_cst_apply, val_main_v3_apply, val_main_v0_apply,
    val_main_v2_apply, val_main_v1_apply]
  simp only [left_at, right_at, bias_at]
  rfl

/-- The reference's spikes are the step's. -/
theorem spikes_eq : val_main_v11 (F := Ideal) W b V x = spikes W b V x := by
  funext i
  obtain ⟨r, h, rfl⟩ : ∃ (r : Fin 64) (h : Fin 1024), i = ix2 r h := ⟨i 0, i 1, eq_ix2 i⟩
  rw [val_main_v11_apply, val_main_v10_apply, val_main_v8_apply, val_main_v7_apply, val_main_cst_0_apply, val_main_v9_apply,
    val_main_cst_1_apply, potential_at]
  rfl

/-- The reference's new membrane potentials are the step's. -/
theorem membrane_eq : val_main_v12 (F := Ideal) W b V x = membrane W b V x := by
  funext i
  obtain ⟨r, h, rfl⟩ : ∃ (r : Fin 64) (h : Fin 1024), i = ix2 r h := ⟨i 0, i 1, eq_ix2 i⟩
  rw [val_main_v12_apply, congrFun (spikes_eq W b V x) (ix2 r h), potential_at]
  rfl

/-- The reference's bias trace is the step's. -/
theorem biasTrace_eq : val_main_v21 (F := Ideal) E_b = biasTrace E_b := by
  funext i
  rw [val_main_v21_apply, val_main_v19_apply, val_main_v18_apply, val_main_cst_3_apply, val_main_v20_apply, val_main_cst_4_apply]
  rfl

/-- `x[:, :, None]` broadcast along the neurons reads `x (r, k)` at `(r, k, h)`. -/
theorem input_at (i : S64x1024x1024.Idx) : idx_main_v15 (idx_main_v16 i) = ix2 (i 0) (i 1) :=
  funext fun a => Fin.ext (by match a with | ⟨0, _⟩ => rfl | ⟨1, _⟩ => rfl)

/-- The reference's weight trace is the step's. -/
theorem weightTrace_eq : val_main_v17 (F := Ideal) E_W x = weightTrace E_W x := by
  funext i
  rw [val_main_v17_apply, val_main_v14_apply, val_main_v13_apply, val_main_cst_2_apply, val_main_v16_apply, val_main_v15_apply, input_at]
  rfl

end Cert.ReferenceIdeal.Step

end
-- ==== Proof.lean ====
/- One step of a dense layer followed by leaky integrate-and-fire neurons, with its eligibility traces: the Pallas
   kernel (a matmul/LIF call over two column tiles of 512 neurons, then a trace update over a 4 × 8 grid of tiles)
   against the jnp reference, over the extended reals.

   Both programs compute, from the weights `W`, biases `b`, potentials `V`, traces `E_W`, `E_b` and input `x`,
     potential = β · V + (x · W + b),   spike = [potential − 1 > 0],   V' = potential − spike,
     E_W' = β · E_W + x[:, :, None],     E_b' = β · E_b + 1
   (Proof/Spec.lean), with the same binary words for β, 1 and 0. At the extended reals the kernel's rounding of the
   matrix operands to bf16 is the identity, its product into a zero accumulator and the reference's `dot_general` are
   the same sum over the contracted axis, and a one-bit comparison zero-extended and converted as a signed integer is
   the bit converted as an unsigned one; tiling changes nothing. No law of the extended reals beyond those is used, so
   the precondition (finite inputs) is never opened.

   Proof/Body.lean reads the two kernel bodies entry by entry; Proof/DenseArrays.lean and Proof/TraceArrays.lean carry
   each region's write-backs to whole arrays; Proof/KernelRun.lean and Proof/KernelResults.lean read the kernel's run
   with its four results named; Proof/RefStep.lean reads the reference's run, one operation at a time. The three
   frames are the generated ones (the reference's is its generated run with the results dropped); the idealization
   rewrote nothing, so `preserves` is trivial. -/
import proofs.«168244_j60894046323057_1_alg».proof.Defs
import proofs.«168244_j60894046323057_1_alg».proof.Proof.Gen.Kernel
import proofs.«168244_j60894046323057_1_alg».proof.Proof.Gen.Kernel.Skeleton
import proofs.«168244_j60894046323057_1_alg».proof.Proof.Gen.Kernel.Launch
import proofs.«168244_j60894046323057_1_alg».proof.Proof.Gen.Kernel.Points
import proofs.«168244_j60894046323057_1_alg».proof.Proof.Gen.Kernel.Frame
import proofs.«168244_j60894046323057_1_alg».proof.Proof.Gen.KernelIdeal
import proofs.«168244_j60894046323057_1_alg».proof.Proof.Gen.KernelIdeal.Skeleton
import proofs.«168244_j60894046323057_1_alg».proof.Proof.Gen.KernelIdeal.Launch
import proofs.«168244_j60894046323057_1_alg».proof.Proof.Gen.KernelIdeal.Points
import proofs.«168244_j60894046323057_1_alg».proof.Proof.Gen.KernelIdeal.Frame
import proofs.«168244_j60894046323057_1_alg».proof.Proof.Gen.ReferenceIdeal
import proofs.«168244_j60894046323057_1_alg».proof.Proof.Gen.Pre_finite_inputs
import proofs.«168244_j60894046323057_1_alg».proof.Proof.Gen.ReferenceIdeal.Run
import proofs.«168244_j60894046323057_1_alg».proof.Proof.Gen.ReferenceIdeal.Read
import proofs.«168244_j60894046323057_1_alg».proof.Proof.KernelResults
import proofs.«168244_j60894046323057_1_alg».proof.Proof.RefStep
import Idealize.ShloMosaic.Adequacy
import Idealize.ShloMosaic.Init

noncomputable section

namespace Cert.Proof

open Idealize.ShloMosaic Idealize.SL.Sem Cert.LifStep

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- From memories agreeing on the six arguments both programs end with the step's new potentials, weight trace,
    bias trace and spikes of those arguments: the kernel by its run read through the two regions, the reference by its
    run read one operation at a time. -/
theorem algebraic : Cert.algebraic_KernelIdeal_ReferenceIdeal := by
  intro m ρ m' ρ' _ hagree
  refine ⟨fun c => membrane (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)), fun c => weightTrace (m ((c.tc : Thread Cert.KernelIdeal.nD Cert.KernelIdeal.τ).loc Cert.KernelIdeal.main_arg3)) (m ((c.tc : Thread Cert.KernelIdeal.nD Cert.KernelIdeal.τ).loc Cert.KernelIdeal.main_arg5)), fun c => biasTrace (m ((c.tc : Thread Cert.KernelIdeal.nD Cert.KernelIdeal.τ).loc Cert.KernelIdeal.main_arg4)),
    fun c => spikes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)), Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  obtain ⟨h12, h17, h21, h11, hargs⟩ := h c
  refine ⟨h12.trans ?_, h17.trans ?_, h21.trans ?_, h11.trans ?_, hargs⟩
  · rw [Cert.ReferenceIdeal.Read.val_main_v12_eq, Cert.ReferenceIdeal.Step.membrane_eq, a0, a1, a2, a5]
  · rw [Cert.ReferenceIdeal.Read.val_main_v17_eq, Cert.ReferenceIdeal.Step.weightTrace_eq, a3, a5]
  · rw [Cert.ReferenceIdeal.Read.val_main_v21_eq, Cert.ReferenceIdeal.Step.biasTrace_eq, a4]
  · rw [Cert.ReferenceIdeal.Read.val_main_v11_eq, Cert.ReferenceIdeal.Step.spikes_eq, a0, a1, a2, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
